-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8191 : Shape := ⟨1, ![8191]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8191 : S_.BroadcastsInDim S8191 (![] : Fin 0 → Fin S8191.rank)
  reducesTo_S8191_S_d0 : S8191.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8191 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8191 .f32 := Host.absf main_arg1
  let main_cst_0 : FVec F S_ .f32 := constant S_ .f32 0x7F800000#32
  let main_v5 : FVec F S8191 .f32 := broadcastInDim S8191 ![] bcast_S_S8191 main_cst_0
  let main_v6 : IVec S8191 1 := cmpf .olt main_v4 main_v5
  let main_c_1 : IVec S_ 1 := constantI S_ 1 1#1
  let main_v7 : IVec S_ 1 := (fun x v => Host.reduce IntOp.andi x v reducesTo_S8191_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4096x4096x1 : Shape := ⟨3, ![4096, 4096, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 25
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .f32⟩
  | .hbm, ⟨3, _⟩ => ⟨S8191, .bf16⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S1x4096, .i32⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096x1, .i32⟩
  | .hbm, ⟨22, _⟩ => ⟨S4096x4096, .bf16⟩
  | .hbm, ⟨23, _⟩ => ⟨S8192x4096, .bf16⟩
  | .hbm, ⟨24, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  gather_S8191_S4096x4096x1_S4096x4096_n_0_n_n_0_2_1_wf : GatherDims.WF S8191 S4096x4096x1 S4096x4096 [] [0] [] [0] [] 2 ![1]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8191 : Shape := ⟨1, ![8191]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S4096x4096x1 : Shape := ⟨3, ![4096, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8191, .f32⟩
  | .hbm, ⟨2, _⟩ => ⟨S4096, .f32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096x1, .i32⟩
  | .hbm, ⟨21, _⟩ => ⟨S4096x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S1x4096_S8192x4096_0_1 : S1x4096.BroadcastsInDim S8192x4096 (![0, 1] : Fin 2 → Fin S8192x4096.rank)
  gather_S8191_S4096x4096x1_S4096x4096_n_0_n_n_0_2_1_wf : GatherDims.WF S8191 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S8191_S4096x4096x1_S4096x4096_n_0_n_n_0_2_1 : GatherDims S8191 S4096x4096x1 S4096x4096 where
  offsetDims := []
  collapsedSliceDims := [0]
  operandBatchingDims := []
  startIndicesBatchingDims := []
  startIndexMap := [0]
  indexVectorDim := 2
  sliceSizes := ![1]
  wf := gather_S8191_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.ToeplitzSpec.lean ====
/-
  The specification both programs are compared against.  The layer is a dense affine map whose weight
  matrix is Toeplitz: entry (o, i) of the weight is one of the 8191 parameters, chosen by an integer index
  array.  Neither program's value depends on WHICH parameter is chosen, only on the fact that both choose
  through the same index array, so the weight enters here as an arbitrary 4096 x 4096 array W.  The result
  at row r and column o is the full inner product of row r of the input with row o of W, plus the bias at o.

  The kernel reaches the inner product in four partial sums of 1024 terms each, added left to right onto a
  zero; the reference takes all 4096 terms at once.  Addition of extended reals is commutative and
  associative, so the two agree whatever the entries are (no finiteness is needed): `rowdot_eq_blocks`,
  and `fold_eq` for the sum in the order the grid visits the blocks.
-/
import Idealize.ShloMosaic.PureOps.Ideal
import Idealize.ShloMosaic.Lib.ValueIdx
import Mathlib.Algebra.BigOperators.Fin
import Mathlib.Logic.Equiv.Fin.Basic

noncomputable section

namespace Cert.Toeplitz

open Idealize.ShloMosaic Idealize.ShloMosaic.ValueIdx

/-- The input's, the weight's, the bias's and one accumulator tile's index sets. -/
abbrev XIdx : Type := (⟨2, ![8192, 4096]⟩ : Shape).Idx
abbrev WIdx : Type := (⟨2, ![4096, 4096]⟩ : Shape).Idx
abbrev BIdx : Type := (⟨1, ![4096]⟩ : Shape).Idx
abbrev TIdx : Type := (⟨2, ![1024, 1024]⟩ : Shape).Idx

/-- Row `r` of the input against row `o` of the weight: all 4096 products. -/
def rowdot (X : XIdx → EReal) (W : WIdx → EReal) (r : Fin 8192) (o : Fin 4096) : EReal :=
  ∑ k : Fin 4096, X (ix2 r k) * W (ix2 o k)

/-- The same two rows restricted to the `s`-th run of 1024 consecutive columns. -/
def blockdot (X : XIdx → EReal) (W : WIdx → EReal) (r : Fin 8192) (o : Fin 4096) (s : Fin 4) : EReal :=
  ∑ k : Fin 1024, X (ix2 r ⟨1024 * s.val + k.val, by have := s.isLt; have := k.isLt; omega⟩)
    * W (ix2 o ⟨1024 * s.val + k.val, by have := s.isLt; have := k.isLt; omega⟩)

/-- THE LAYER: entry (r, o) of the result is the inner product of input row r and weight row o, plus bias o. -/
def affine (X : XIdx → EReal) (W : WIdx → EReal) (B : BIdx → EReal) : XIdx → EReal :=
  fun i => rowdot X W (i 0) (i 1) + B (ix1 (i 1))

/-- A sum over 4096 consecutive terms is the sum of its four runs of 1024: the columns `1024 s + k`
    with `s < 4`, `k < 1024` are all of them, each once. -/
theorem sum_blocks {M : Type*} [AddCommMonoid M] (f : Fin 4096 → M) :
    ∑ s : Fin 4, ∑ k : Fin 1024, f ⟨1024 * s.val + k.val, by have := s.isLt; have := k.isLt; omega⟩
      = ∑ i : Fin 4096, f i := by
  rw [← Fintype.sum_prod_type']
  exact Fintype.sum_equiv (finProdFinEquiv (m := 4) (n := 1024)) _ _
    (fun p => congrArg f (Fin.ext (by
      show 1024 * p.1.val + p.2.val = (finProdFinEquiv p).val
      rw [finProdFinEquiv_apply_val]; omega)))

/-- The inner product is the sum of its four block parts. -/
theorem rowdot_eq_blocks (X : XIdx → EReal) (W : WIdx → EReal) (r : Fin 8192) (o : Fin 4096) :
    ∑ s : Fin 4, blockdot X W r o s = rowdot X W r o :=
  sum_blocks (fun k => X (ix2 r k) * W (ix2 o k))

/-- What grid point `n` adds to the accumulator tile at tile position `y`.  The grid is 8 x 4 x 4 in
    row-major order, so point `n` works on row tile `n / 16`, column tile `n / 4 % 4` and contraction block
    `n % 4`; its addend at `y` is that block's part of the inner product of input row `1024 (n / 16) + y₀`
    and weight row `1024 (n / 4 % 4) + y₁`.  Past the grid it is zero (a value nothing reads). -/
def addend (X : XIdx → EReal) (W : WIdx → EReal) (n : ℕ) (y : TIdx) : EReal :=
  if h : n < 128 then
    blockdot X W ⟨1024 * (n / 16) + (y 0).val, by have := idx2_lt0 y; omega⟩
      ⟨1024 * (n / 4 % 4) + (y 1).val, by have := idx2_lt1 y; omega⟩ ⟨n % 4, by omega⟩
  else 0

/-- Four consecutive points `4 q … 4 q + 3` share their row and column tiles and run through the four
    contraction blocks, so zero plus their four addends is the whole inner product for that tile position. -/
theorem fold_eq (X : XIdx → EReal) (W : WIdx → EReal) (q : ℕ) (hq : q < 32) (y : TIdx) :
    (0 : EReal) + ∑ s ∈ Finset.range 4, addend X W (4 * q + s) y
      = rowdot X W ⟨1024 * (q / 4) + (y 0).val, by have := idx2_lt0 y; omega⟩
          ⟨1024 * (q % 4) + (y 1).val, by have := idx2_lt1 y; omega⟩ := by
  rw [zero_add, Finset.sum_range, ← rowdot_eq_blocks]
  refine Finset.sum_congr rfl fun s _ => ?_
  have hs := s.isLt
  unfold addend
  rw [dif_pos (by omega)]
  congr 1 <;> exact Fin.ext (by dsimp only; omega)

end Cert.Toeplitz

end
-- ==== Proof.GridTiles.lean ====
/-
  Which part of each array a grid point works on.  The grid is 8 x 4 x 4, visited in row-major order, so
  point t has row tile t / 16, column tile t / 4 % 4 and contraction block t % 4.  At that point the body
  sees rows 1024 (t / 16) … of the input restricted to columns 1024 (t % 4) …, rows 1024 (t / 4 % 4) … of the
  weight restricted to the same columns, entries 1024 (t / 4 % 4) … of the bias, and writes rows
  1024 (t / 16) …, columns 1024 (t / 4 % 4) … of the result.
-/
import proofs.«141886_j2173253452210_1_alg».proof.Proof.Gen.KernelIdeal.Value
import proofs.«141886_j2173253452210_1_alg».proof.Proof.ToeplitzSpec

noncomputable section

namespace Cert.KernelIdeal.Layer

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The three arrays as the kernel region finds them, and the three tiles a grid point loads, over the
    extended reals. -/
abbrev inputArr (c : Dev nD) : Cert.Toeplitz.XIdx → EReal := V m c main_v17
abbrev weightArr (c : Dev nD) : Cert.Toeplitz.WIdx → EReal := V m c main_v16
abbrev biasArr (c : Dev nD) : Cert.Toeplitz.BIdx → EReal := V m c main_arg2
abbrev inputTile (c : Dev nD) (t : Fin cfg0.N) : Vec Ideal S1024x1024 .bf16 := iblk m c 0 t
abbrev weightTile (c : Dev nD) (t : Fin cfg0.N) : Vec Ideal S1024x1024 .bf16 := iblk m c 1 t
abbrev biasTile (c : Dev nD) (t : Fin cfg0.N) : Vec Ideal S1024 .f32 := iblk m c 2 t

/-- The tile coordinates of every window at every grid point, decided over the 128 points. -/
theorem tile_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

theorem point_lt (t : Fin cfg0.N) : t.val < 128 := lt_of_lt_of_eq t.isLt (show cfg0.N = 128 from N_0)

/-- The input tile of point t at (p, k) is the input at row 1024 (t / 16) + p, column 1024 (t % 4) + k. -/
theorem inputTile_apply (c : Dev nD) (t : Fin cfg0.N) (p k : Fin 1024) :
    inputTile m c t (ix2 p k)
      = inputArr m c (ix2 ⟨1024 * (t.val / 16) + p.val, by have := point_lt t; have := p.isLt; omega⟩
          ⟨1024 * (t.val % 4) + k.val, by have := k.isLt; omega⟩) := by
  obtain ⟨e0, e1, -⟩ := tile_index t
  show V m c main_v17 (((cfg0.win 0).blk t).view.emb (ix2 p k)) = V m c main_v17 _
  congr 1
  funext a; apply Fin.ext
  match a with
  | ⟨0, _⟩ => show win0_0.index t (0 : Fin 2) * 1024 + 1 * p.val = 1024 * (t.val / 16) + p.val; omega
  | ⟨1, _⟩ => show win0_0.index t (1 : Fin 2) * 1024 + 1 * k.val = 1024 * (t.val % 4) + k.val; omega

/-- The weight tile of point t at (q, k) is the weight at row 1024 (t / 4 % 4) + q, column 1024 (t % 4) + k. -/
theorem weightTile_apply (c : Dev nD) (t : Fin cfg0.N) (q k : Fin 1024) :
    weightTile m c t (ix2 q k)
      = weightArr m c (ix2 ⟨1024 * (t.val / 4 % 4) + q.val, by have := q.isLt; omega⟩
          ⟨1024 * (t.val % 4) + k.val, by have := k.isLt; omega⟩) := by
  obtain ⟨-, -, e2, e3, -⟩ := tile_index t
  show V m c main_v16 (((cfg0.win 1).blk t).view.emb (ix2 q k)) = V m c main_v16 _
  congr 1
  funext a; apply Fin.ext
  match a with
  | ⟨0, _⟩ => show win0_1.index t (0 : Fin 2) * 1024 + 1 * q.val = 1024 * (t.val / 4 % 4) + q.val; omega
  | ⟨1, _⟩ => show win0_1.index t (1 : Fin 2) * 1024 + 1 * k.val = 1024 * (t.val % 4) + k.val; omega

/-- The bias tile of point t at q is the bias at 1024 (t / 4 % 4) + q. -/
theorem biasTile_apply (c : Dev nD) (t : Fin cfg0.N) (q : Fin 1024) :
    biasTile m c t (ix1 q) = biasArr m c (ix1 ⟨1024 * (t.val / 4 % 4) + q.val, by have := q.isLt; omega⟩) := by
  obtain ⟨-, -, -, -, e4, -⟩ := tile_index t
  show V m c main_arg2 (((cfg0.win 2).blk t).view.emb (ix1 q)) = V m c main_arg2 _
  congr 1
  funext a; apply Fin.ext
  match a with
  | ⟨0, _⟩ => show win0_2.index t (0 : Fin 1) * 1024 + 1 * q.val = 1024 * (t.val / 4 % 4) + q.val; omega

/-- The product of the two tiles of point t, at (p, q), is the point's addend of the specification. -/
theorem tile_product_eq_addend (c : Dev nD) (t : Fin cfg0.N) (p q : Fin 1024) :
    ∑ k : Fin 1024, (inputTile m c t (ix2 p k) : EReal) * (weightTile m c t (ix2 q k) : EReal)
      = Cert.Toeplitz.addend (inputArr m c) (weightArr m c) t.val (ix2 p q) := by
  unfold Cert.Toeplitz.addend Cert.Toeplitz.blockdot
  rw [dif_pos (point_lt t)]
  refine Finset.sum_congr rfl fun k _ => ?_
  rw [inputTile_apply, weightTile_apply]

end Cert.KernelIdeal.Layer

end
-- ==== Proof.BodyCases.lean ====
/-
  What one call of the kernel body leaves behind, as a function of what it loaded.  The body has three
  control cases, told apart by the contraction coordinate k of the grid point:
    k = 0       the accumulator tile is first set to zero, then the product of the two loaded tiles is added;
    k = 1, 2    the product is added to what the previous point left in the accumulator;
    k = 3       the same, and the accumulator plus the bias row is stored to the output tile.
  Each store covers its whole tile, so what a buffer holds afterwards is the last value stored into it.
-/
import proofs.«141886_j2173253452210_1_alg».proof.Proof.Gen.KernelIdeal.Value

set_option maxRecDepth 16384

noncomputable section

namespace Cert.KernelIdeal.Layer

open Cert.KernelIdeal Cert.KernelIdeal.Gen Idealize.ShloMosaic Idealize.ShloMosaic.TcCoe Idealize.ShloMosaic.Tactic
open Idealize.SL.Sem

variable {F : FTy → Type} [FloatOps F]

/-- Every store of the body starts at the tile's origin. -/
theorem origin2 : (![0, 0] : Fin 2 → Nat) = fun _ => 0 := funext fun a => by fin_cases a <;> rfl

/-- … and of the bias row.-/
theorem origin1 : (![0] : Fin 1 → Nat) = fun _ => 0 := funext fun a => by fin_cases a; rfl

/-- First contraction block: the accumulator ends at zero plus the product of the loaded tiles. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- A middle contraction block: the product is added to what the accumulator held. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin2]
  simp only [View.readAt_eq_ld, harg3.read_unread, harg4.read_unread, harg7.read_unread,
    View.ld_unit_zero (S := S1024x1024) origin2]

/-- Last contraction block: the accumulator is updated as in the middle blocks … -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg7.read_unread,
    View.ld_unit_zero (S := S1024x1024) origin2]

/-- … and the output tile receives the updated accumulator plus the bias row. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    out0_C_3 c i arg3 harg3 arg4 harg4 arg5 harg5 arg6 harg6 arg7 harg7 hc0 hc1 x0 x1 x2 xs0 = k0_pay3 x2 (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin2]
  simp only [View.readAt_eq_ld, harg3.read_unread, harg4.read_unread, harg5.read_unread, harg7.read_unread,
    View.readCov_unit_zero (S := S1024x1024) _ origin2,
    View.ld_unit_zero (S := S1024x1024) origin2, View.ld_unit_zero (S := S1024) origin1]

end Cert.KernelIdeal.Layer

end
-- ==== Proof.TileArithmetic.lean ====
/-
  The arithmetic of one call of the kernel body, entry by entry, over the extended reals.
  The three values the body stores are: a tile of zeros; an accumulator tile plus the product of the two
  loaded tiles, the second taken transposed (entry (p, q) of the product is the inner product of row p of the
  first tile with row q of the second, 1024 terms); and an accumulator tile plus the bias row repeated down
  the rows.  The re-shapes around them do not move any entry.
-/
import proofs.«141886_j2173253452210_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Layer

open Cert.KernelIdeal Cert.KernelIdeal.Gen Idealize.ShloMosaic Idealize.ShloMosaic.ValueIdx

/-! ## The product's two operand indices: (p, k) in the first tile, (q, k) in the second -/

theorem lhs_tile_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_tile_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_tile_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_tile_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two tiles into a zero accumulator, at (p, q): row p of the first against row q of the second. -/
theorem product_tile_apply (x0 x1 : Vec Ideal S1024x1024 .bf16) (p q : Fin 1024) :
    matmul (F := Ideal) (φ₁ := .bf16) (φ₂ := .bf16) dot_S1024x1024_S1024x1024_S1024x1024_1_1_0_0_n_n none x0 x1 (constant (F := Ideal) S1024x1024 .f32 0x00000000#32) (ix2 p q)
      = ∑ k : Fin 1024, (x0 (ix2 p k) : EReal) * (x1 (ix2 q k) : EReal) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-! ## The three stored values -/

/-- The tile the first contraction block starts from is zero everywhere. -/
theorem zero_tile_apply (j : S1024x1024.Idx) : k0_pay1 (F := Ideal) j = (0 : EReal) := by
  unfold k0_pay1
  simp only [shapeCast_self]
  exact Ideal.ofBits_zero_f32

/-- The accumulator update at (p, q): what it held there plus the inner product of the two tile rows. -/
theorem accumulate_apply (acc : Vec Ideal S1024x1024 .f32) (x0 x1 : Vec Ideal S1024x1024 .bf16) (p q : Fin 1024) :
    k0_pay2 (F := Ideal) acc x0 x1 (ix2 p q)
      = (acc (ix2 p q) : EReal) + ∑ k : Fin 1024, (x0 (ix2 p k) : EReal) * (x1 (ix2 q k) : EReal) := by
  unfold k0_pay2
  simp only [shapeCast_self]
  exact congrArg (acc (ix2 p q) + ·) (product_tile_apply x0 x1 p q)

/-- The output tile at (p, q): the accumulator there plus the bias entry of column q. -/
theorem add_bias_apply (b : Vec Ideal S1024 .f32) (acc : Vec Ideal S1024x1024 .f32) (p q : Fin 1024) :
    k0_pay3 (F := Ideal) b acc (ix2 p q) = (acc (ix2 p q) : EReal) + (b (ix1 q) : EReal) := by
  unfold k0_pay3
  simp only [shapeCast_self]
  refine congrArg (acc (ix2 p q) + ·) ?_
  exact (broadcastTo_1b_ab_apply _ _ p q).trans (shapeCast_a_1a_apply b _ 0 q)

end Cert.KernelIdeal.Layer

end
-- ==== Proof.Accumulator.lean ====
/-
  The accumulator tile across a run of four consecutive grid points.  Points 4 q, 4 q + 1, 4 q + 2, 4 q + 3
  share their row tile and column tile and differ only in the contraction block.  The first resets the
  accumulator to zero and adds its block's product; each later one adds its block's product to what the
  point before left.  So after point 4 q + j the accumulator holds zero plus the addends of points
  4 q … 4 q + j, and after the run's last point the whole inner product for every position of the tile.
-/
import proofs.«141886_j2173253452210_1_alg».proof.Proof.GridTiles
import proofs.«141886_j2173253452210_1_alg».proof.Proof.BodyCases
import proofs.«141886_j2173253452210_1_alg».proof.Proof.TileArithmetic

noncomputable section

namespace Cert.KernelIdeal.Layer

open Cert.KernelIdeal Cert.KernelIdeal.Gen Cert.KernelIdeal.Value
open Idealize.ShloMosaic Idealize.ShloMosaic.TcCoe Idealize.ShloMosaic.ValueIdx Idealize.SL.Sem

variable (m : (ℓ : Loc nD τ sig) → Buf (Elt Ideal) ℓ)

/-- What point n makes of the accumulator, at (p, q): zero (at the run's first point) or what it held,
    plus the point's addend. -/
theorem step_apply (c : Dev nD) (n : ℕ) (hb : n < cfg0.N) (acc : Vec Ideal S1024x1024 .f32) (p q : Fin 1024) :
    scAt0_0 m c n hb acc (ix2 p q)
      = (if n % 4 = 0 then (0 : EReal) else acc (ix2 p q))
        + Cert.Toeplitz.addend (inputArr m c) (weightArr m c) n (ix2 p q) := by
  unfold scAt0_0
  by_cases h0 : n % 4 = 0
  · have h1 : ¬n % 4 = 3 := by omega
    rw [dif_pos h0, dif_neg h1, if_pos h0]
    refine (congrFun (scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h))
      (inputTile m c (⟨n, hb⟩ : Fin cfg0.N)) (weightTile m c (⟨n, hb⟩ : Fin cfg0.N)) (biasTile m c (⟨n, hb⟩ : Fin cfg0.N))) (ix2 p q)).trans ?_
    refine (accumulate_apply (k0_pay1 (F := Ideal)) (inputTile m c (⟨n, hb⟩ : Fin cfg0.N)) (weightTile m c (⟨n, hb⟩ : Fin cfg0.N)) p q).trans ?_
    rw [zero_tile_apply]
    exact congrArg ((0 : EReal) + ·) (tile_product_eq_addend m c (⟨n, hb⟩ : Fin cfg0.N) p q)
  · by_cases h1 : n % 4 = 3
    · rw [dif_neg h0, dif_pos h1, if_neg h0]
      refine (congrFun (scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1)
        (inputTile m c (⟨n, hb⟩ : Fin cfg0.N)) (weightTile m c (⟨n, hb⟩ : Fin cfg0.N)) (biasTile m c (⟨n, hb⟩ : Fin cfg0.N)) acc) (ix2 p q)).trans ?_
      refine (accumulate_apply acc (inputTile m c (⟨n, hb⟩ : Fin cfg0.N)) (weightTile m c (⟨n, hb⟩ : Fin cfg0.N)) p q).trans ?_
      exact congrArg ((acc (ix2 p q) : EReal) + ·) (tile_product_eq_addend m c (⟨n, hb⟩ : Fin cfg0.N) p q)
    · rw [dif_neg h0, dif_neg h1, if_neg h0]
      refine (congrFun (scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h))
        (inputTile m c (⟨n, hb⟩ : Fin cfg0.N)) (weightTile m c (⟨n, hb⟩ : Fin cfg0.N)) (biasTile m c (⟨n, hb⟩ : Fin cfg0.N)) acc) (ix2 p q)).trans ?_
      refine (accumulate_apply acc (inputTile m c (⟨n, hb⟩ : Fin cfg0.N)) (weightTile m c (⟨n, hb⟩ : Fin cfg0.N)) p q).trans ?_
      exact congrArg ((acc (ix2 p q) : EReal) + ·) (tile_product_eq_addend m c (⟨n, hb⟩ : Fin cfg0.N) p q)

/-- After the last point of a run the accumulator holds, at (p, q), the inner product of input row
    1024 (row tile) + p and weight row 1024 (column tile) + q: the fold of the run's four steps. -/
theorem accumulator_apply (c : Dev nD) (t : Fin cfg0.N) (h3 : t.val % 4 = 3) (p q : Fin 1024) :
    ((outsAt0 m c t.val t.isLt).2 (ix2 p q) : EReal)
      = Cert.Toeplitz.rowdot (inputArr m c) (weightArr m c)
          ⟨1024 * (t.val / 4 / 4) + p.val, by have := point_lt t; have := p.isLt; omega⟩
          ⟨1024 * (t.val / 4 % 4) + q.val, by have := q.isLt; omega⟩ := by
  have hN := point_lt t
  rw [soutsAt0_0_eq m c t]
  refine (Pipeline.accAt_add_apply (β := EReal)
    (fun n h => scAt0_0 m c n h (VS0_0.read (Elt Ideal) VS0_0.junk)) (scAt0_0 m c)
    (fun _ => (0 : EReal)) (Cert.Toeplitz.addend (inputArr m c) (weightArr m c)) (4 * (t.val / 4)) 3
    (fun h i => by
      obtain ⟨a, b, rfl⟩ : ∃ (a b : Fin 1024), i = ix2 a b := ⟨i 0, i 1, eq_ix2 i⟩
      refine (step_apply m c _ h _ a b).trans ?_
      rw [if_pos (by omega)])
    (fun n h acc i hlo hhi => by
      obtain ⟨a, b, rfl⟩ : ∃ (a b : Fin 1024), i = ix2 a b := ⟨i 0, i 1, eq_ix2 i⟩
      refine (step_apply m c n h acc a b).trans ?_
      rw [if_neg (by omega)])
    (t.val % 4) (by omega) _ (ix2 p q)).trans ?_
  rw [h3]
  exact Cert.Toeplitz.fold_eq (inputArr m c) (weightArr m c) (t.val / 4) (by omega) (ix2 p q)

end Cert.KernelIdeal.Layer

end
-- ==== Proof.LayerValue.lean ====
/-
  The kernel's result array.  Only the last point of each run of four writes its output tile back, and what
  it writes is the accumulator — by then the whole inner product at every position of the tile — plus the
  bias row.  That is exactly the tile of the layer's result at the point's row tile and column tile.  The 32
  writing points (8 row tiles x 4 column tiles) cover the 8192 x 4096 result, so after the run the result
  array is the layer applied to the arrays the region was entered with.
-/
import proofs.«141886_j2173253452210_1_alg».proof.Proof.Accumulator

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer applied to the arrays as the kernel region finds them. -/
abbrev layerOut (c : Dev nD) : Cert.Toeplitz.XIdx → EReal :=
  Cert.Toeplitz.affine (inputArr m c) (weightArr m c) (biasArr m c)

/-- At the last point of a run the output tile is the bias row added to the accumulator the same call leaves. -/
theorem output_tile_eq (c : Dev nD) (t : Fin cfg0.N) (h0 : ¬t.val % 4 = 0) (h3 : t.val % 4 = 3) :
    (outsAt0 m c t.val t.isLt).1 = k0_pay3 (F := Ideal) (biasTile m c t) (outsAt0 m c t.val t.isLt).2 := by
  rw [outsAt0_C m c t h0 h3]
  dsimp only
  exact (output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (inputTile m c t) (weightTile m c t) (biasTile m c t) (outsAt0 m c (t.val - 1) (Nat.lt_of_le_of_lt (Nat.sub_le _ _) t.isLt)).2).trans
    (congrArg (k0_pay3 (F := Ideal) (biasTile m c t))
      (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
        (inputTile m c t) (weightTile m c t) (biasTile m c t) (outsAt0 m c (t.val - 1) (Nat.lt_of_le_of_lt (Nat.sub_le _ _) t.isLt)).2).symm)

/-- The output tile of a writing point, at (p, q), is the layer's result at row 1024 (row tile) + p,
    column 1024 (column tile) + q. -/
theorem output_tile_apply (c : Dev nD) (t : Fin cfg0.N) (h3 : t.val % 4 = 3) (p q : Fin 1024) :
    ((outsAt0 m c t.val t.isLt).1 (ix2 p q) : EReal)
      = layerOut m c (ix2 ⟨1024 * (t.val / 4 / 4) + p.val, by have := point_lt t; have := p.isLt; omega⟩
          ⟨1024 * (t.val / 4 % 4) + q.val, by have := q.isLt; omega⟩) := by
  rw [output_tile_eq m c t (by omega) h3]
  refine (add_bias_apply (biasTile m c t) (outsAt0 m c t.val t.isLt).2 p q).trans ?_
  rw [accumulator_apply m c t h3 p q, biasTile_apply m c t q]
  rfl

/-- WHAT A WRITING POINT WRITES BACK is its tile of the layer's result. -/
theorem flushed_eq (c : Dev nD) (t : Fin cfg0.N) (hf : (cfg0.win 3).flush t = true) :
    (dats m 0 c).flushed 3 t = ((cfg0.win 3).blk t).view.read (Elt Ideal) (layerOut m c) := by
  have h3 : t.val % 4 = 3 := (flush0_3 t).mp hf
  have hN := point_lt t
  obtain ⟨-, -, -, -, -, e5, e6⟩ := tile_index t
  rw [Cert.KernelIdeal.Value.flushed3 m c t]
  funext j
  obtain ⟨p, q, rfl⟩ : ∃ (p q : Fin 1024), j = ix2 p q := ⟨j 0, j 1, eq_ix2 j⟩
  show ((outsAt0 m c t.val t.isLt).1 (ix2 p q) : EReal) = layerOut m c (((cfg0.win 3).blk t).view.emb (ix2 p q))
  rw [output_tile_apply m c t h3 p q]
  congr 1
  funext a; apply Fin.ext
  match a with
  | ⟨0, _⟩ => show 1024 * (t.val / 4 / 4) + p.val = win0_3.index t (0 : Fin 2) * 1024 + 1 * p.val; omega
  | ⟨1, _⟩ => show 1024 * (t.val / 4 % 4) + q.val = win0_3.index t (1 : Fin 2) * 1024 + 1 * q.val; omega

/-- An entry of the result lies in point t's tile iff each coordinate lies in the tile's range. -/
theorem mem_tile (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v18).slice (win0_3.rect t)).set ↔ _
  rw [View.set_slice_whole, Rect.mem_set_unit]
  exact Iff.rfl

/-- Every entry (r, o) of the result is in the tile of a writing point: the last point of the run with
    row tile r / 1024 and column tile o / 1024. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨n, hn⟩ : ∃ n, n = 16 * ((i 0).val / 1024) + 4 * ((i 1).val / 1024) + 3 := ⟨_, rfl⟩
  have hb : n < cfg0.N := by rw [show cfg0.N = 128 from N_0]; omega
  obtain ⟨-, -, -, -, -, e5, e6⟩ := tile_index ⟨n, hb⟩
  have e5' : win0_3.index ⟨n, hb⟩ (0 : Fin 2) = n / 16 := e5
  have e6' : win0_3.index ⟨n, hb⟩ (1 : Fin 2) = n / 4 % 4 := e6
  refine ⟨⟨n, hb⟩, (flush0_3 _).mpr (by show n % 4 = 3; omega), ?_⟩
  rw [mem_tile]
  intro a
  match a with
  | ⟨0, _⟩ =>
    show win0_3.index ⟨n, hb⟩ (0 : Fin 2) * 1024 ≤ (i 0).val ∧ (i 0).val < win0_3.index ⟨n, hb⟩ (0 : Fin 2) * 1024 + 1024
    omega
  | ⟨1, _⟩ =>
    show win0_3.index ⟨n, hb⟩ (1 : Fin 2) * 1024 ≤ (i 1).val ∧ (i 1).val < win0_3.index ⟨n, hb⟩ (1 : Fin 2) * 1024 + 1024
    omega

/-- THE RESULT ARRAY after the run is the layer's result. -/
theorem final (c : Dev nD) : (dats m 0 c).arrAt 3 cfg0.N = layerOut m c :=
  (dats m 0 c).arrAt_eq_of_cover 3 (layerOut m c) (fun t hf => flushed_eq m c t hf) covered

/-- The kernel's run: it ends with the result array at the layer's result and the arguments unchanged. -/
theorem run : θ_run defs (onTc (τ := τ) (main (F := Ideal))) ⟨m, fun _ => 0, ρ⟩ fun r => ∀ c : Dev nD,
      r.2.mem ((c : Thread nD τ).loc main_v18) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Layer

end
-- ==== Proof.ReferenceLayer.lean ====
/-
  The reference computes the layer directly: it gathers the 4096 x 4096 weight out of the parameters through
  the index array, contracts the input's columns against the weight's columns in one host dot product, and
  adds the bias broadcast down the rows.  Read entry by entry that is the specification's `affine`, with
  the gathered array as the weight.
-/
import proofs.«141886_j2173253452210_1_alg».proof.Proof.Gen.ReferenceIdeal.Read
import proofs.«141886_j2173253452210_1_alg».proof.Proof.ToeplitzSpec

noncomputable section

namespace Cert.ReferenceIdeal.Layer

open Cert.ReferenceIdeal Cert.ReferenceIdeal.Gen Cert.ReferenceIdeal.Read
open Idealize.ShloMosaic Idealize.ShloMosaic.TcCoe Idealize.ShloMosaic.ValueIdx

/-- The reference's result is the layer applied to its input, its gathered weight and its bias. -/
theorem result_eq (x0 : (⟨S8192x4096, .f32⟩ : BufTy).Contents (Elt Ideal)) (x1 : (⟨S8191, .f32⟩ : BufTy).Contents (Elt Ideal))
    (x2 : (⟨S4096, .f32⟩ : BufTy).Contents (Elt Ideal)) :
    val_main_v19 (F := Ideal) x0 x1 x2 = Cert.Toeplitz.affine x0 (val_main_v15 (F := Ideal) x1) x2 := by
  funext i
  rw [val_main_v19_apply, val_main_v16_apply, val_main_v18_apply, val_main_v17_apply]
  have el : ∀ k, lidx_main_v16 i k = ix2 (i 0) k := fun k => funext fun a => Fin.ext (by
    match a with | ⟨0, _⟩ => rfl | ⟨1, _⟩ => rfl)
  have er : ∀ k, ridx_main_v16 i k = ix2 (i 1) k := fun k => funext fun a => Fin.ext (by
    match a with | ⟨0, _⟩ => rfl | ⟨1, _⟩ => rfl)
  have eb : idx_main_v17 (idx_main_v18 i) = ix1 (i 1) := funext fun a => Fin.ext (by
    match a with | ⟨0, _⟩ => rfl)
  simp only [el, er, eb]
  rfl

end Cert.ReferenceIdeal.Layer

end
-- ==== Proof.EntryArrays.lean ====
/-
  The arrays the kernel region is entered with, in terms of the launch arguments.  Before the region the
  kernel's host code converts the input and the parameters to a narrower float format, builds the integer
  index array (4095 - o + i, with a negative index wrapped by adding 8191) and gathers the weight out of the
  converted parameters through it.  Over the extended reals a change of float format is the identity, so the
  input array is the input argument itself, and the weight is the parameters gathered through the index
  array: the very array the reference gathers, its index array being built by the same integer operations.
  The bias is passed to the region untouched.
-/
import proofs.«141886_j2173253452210_1_alg».proof.Proof.LayerValue
import proofs.«141886_j2173253452210_1_alg».proof.Proof.ReferenceLayer
import Idealize.ShloMosaic.Lib.StableHlo.Run

noncomputable section

namespace Cert.KernelIdeal.Layer

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The region's input array is the input argument. -/
theorem inputArr_eq (c : Dev nD) :
    inputArr m c = (m ((c : Thread nD τ).loc main_arg0) : Cert.Toeplitz.XIdx → EReal) := by
  show (V m c main_v17 : Cert.Toeplitz.XIdx → EReal) = _
  dsimp only [V, hostOps0]; after_results; rfl

/-- The region's bias array is the bias argument. -/
theorem biasArr_eq (c : Dev nD) :
    biasArr m c = (m ((c : Thread nD τ).loc main_arg2) : Cert.Toeplitz.BIdx → EReal) :=
  V_main_arg2 m c

set_option maxHeartbeats 2000000 in
/-- The region's weight array is the reference's gathered weight of the parameter argument. -/
theorem weightArr_eq (c : Dev nD) :
    weightArr m c = (Cert.ReferenceIdeal.Read.val_main_v15 (F := Ideal) (m ((c : Thread nD τ).loc main_arg1))
      : Cert.Toeplitz.WIdx → EReal) := by
  show (V m c main_v16 : Cert.Toeplitz.WIdx → EReal) = _
  dsimp only [V, hostOps0]; after_results; rfl

end Cert.KernelIdeal.Layer

end
-- ==== Proof.lean ====
/-
  A dense layer with a Toeplitz weight: result[r, o] = sum over i of x[r, i] * w[o, i] + bias[o], where
  w[o, i] is parameter number 4095 - o + i (a negative number wrapped by adding 8191).

  The kernel builds w on the host, narrows x and the parameters to a shorter float format, and runs one
  tiled matrix product on an 8 x 4 x 4 grid: for each 1024 x 1024 tile of the result it walks the four
  contraction blocks of 1024 columns, adding each block's product of an x tile and a w tile into an
  accumulator that the first block resets to zero, and after the fourth block stores accumulator plus bias.
  The reference gathers w the same way and takes one dot product over all 4096 columns, then adds the bias.

  Over the extended reals the format changes are the identity, the two index arrays are built by the same
  integer operations, and the kernel's four partial sums added onto zero are the reference's one sum
  regrouped.  Addition of extended reals is commutative and associative, so the regrouping holds for all
  values and the finiteness of the inputs is never used.  The idealized kernel is the kernel's own text read
  over the extended reals (no rewrite was applied), so there is nothing to preserve; the three frames are the
  generated frame runs (for the reference: its generated run with the result dropped).

  The proof's parts: the specification and its regrouping law (ToeplitzSpec), what one call of the body
  leaves (BodyCases, TileArithmetic), which part of each array a grid point sees (GridTiles), the accumulator
  over a run of four points (Accumulator), the result array (LayerValue), the arrays at region entry
  (EntryArrays), and the reference's result read entry by entry (ReferenceLayer).
-/
import proofs.«141886_j2173253452210_1_alg».proof.Defs
import proofs.«141886_j2173253452210_1_alg».proof.Proof.Gen.Kernel
import proofs.«141886_j2173253452210_1_alg».proof.Proof.Gen.Kernel.Skeleton
import proofs.«141886_j2173253452210_1_alg».proof.Proof.Gen.Kernel.Launch
import proofs.«141886_j2173253452210_1_alg».proof.Proof.Gen.Kernel.Points
import proofs.«141886_j2173253452210_1_alg».proof.Proof.Gen.Kernel.Frame
import proofs.«141886_j2173253452210_1_alg».proof.Proof.Gen.KernelIdeal
import proofs.«141886_j2173253452210_1_alg».proof.Proof.Gen.KernelIdeal.Skeleton
import proofs.«141886_j2173253452210_1_alg».proof.Proof.Gen.KernelIdeal.Launch
import proofs.«141886_j2173253452210_1_alg».proof.Proof.Gen.KernelIdeal.Points
import proofs.«141886_j2173253452210_1_alg».proof.Proof.Gen.KernelIdeal.Frame
import proofs.«141886_j2173253452210_1_alg».proof.Proof.Gen.ReferenceIdeal
import proofs.«141886_j2173253452210_1_alg».proof.Proof.Gen.Pre_finite_inputs
import proofs.«141886_j2173253452210_1_alg».proof.Proof.Gen.KernelIdeal.Value
import proofs.«141886_j2173253452210_1_alg».proof.Proof.Gen.ReferenceIdeal.Run
import proofs.«141886_j2173253452210_1_alg».proof.Proof.Gen.ReferenceIdeal.Read
import proofs.«141886_j2173253452210_1_alg».proof.Proof.EntryArrays
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the layer's result: the kernel's result array is the layer applied to the arrays its
    region is entered with, which are the input argument, the reference's gathered weight and the bias argument;
    the reference's result is the layer applied to those same three. -/
theorem algebraic : Cert.algebraic_KernelIdeal_ReferenceIdeal := by
  intro m ρ m' ρ' _ hagree
  refine ⟨fun c => Cert.KernelIdeal.Layer.layerOut m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Layer.result_eq,
    (hagree c).1, (hagree c).2.1, (hagree c).2.2]
  show _ = Cert.Toeplitz.affine (Cert.KernelIdeal.Layer.inputArr m c) (Cert.KernelIdeal.Layer.weightArr m c)
    (Cert.KernelIdeal.Layer.biasArr m c)
  rw [Cert.KernelIdeal.Layer.inputArr_eq, Cert.KernelIdeal.Layer.weightArr_eq, Cert.KernelIdeal.Layer.biasArr_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
